-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048x512 : Shape := ⟨3, ![16, 2048, 512]⟩
abbrev S16 : Shape := ⟨1, ![16]⟩
abbrev S512x1024 : Shape := ⟨2, ![512, 1024]⟩
abbrev S512 : Shape := ⟨1, ![512]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x2048x512 : S_.BroadcastsInDim S16x2048x512 (![] : Fin 0 → Fin S16x2048x512.rank)
  reducesTo_S16x2048x512_S_d0_1_2 : S16x2048x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16x2048x1024 .f32) (main_arg1 : FVec F S16x2048x512 .f32) (main_arg2 : IVec S16 32) (main_arg3 : FVec F S512x1024 .f32) (main_arg4 : FVec F S512 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16x2048x1024 : Shape := ⟨3, ![16, 2048, 1024]⟩
abbrev S16x2048x512 : Shape := ⟨3, ![16, 2048, 512]⟩
abbrev S16 : Shape := ⟨1, ![16]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩
abbrev S16x2048x2048 : Shape := ⟨3, ![16, 2048, 2048]⟩
abbrev S1x256x1024 : Shape := ⟨3, ![1, 256, 1024]⟩
abbrev S1x2048x512 : Shape := ⟨3, ![1, 2048, 512]⟩
abbrev S1x256x512 : Shape := ⟨3, ![1, 256, 512]⟩
abbrev S1x256x2048 : Shape := ⟨3, ![1, 256, 2048]⟩
abbrev S2048x512 : Shape := ⟨2, ![2048, 512]⟩
abbrev S256x1024 : Shape := ⟨2, ![256, 1024]⟩
abbrev S256x512 : Shape := ⟨2, ![256, 512]⟩
abbrev S256x2048 : Shape := ⟨2, ![256, 2048]⟩
abbrev S1 : Shape := ⟨1, ![1]⟩
abbrev S256 : Shape := ⟨1, ![256]⟩
abbrev S256x1 : Shape := ⟨2, ![256, 1]⟩

abbrev nBuf : Space → Nat
  | .hbm => 8
  | .vmem => 11
  | .smem => 1
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1x512, .f32⟩
  | .hbm, ⟨6, _⟩ => ⟨S16x2048x512, .f32⟩
  | .hbm, ⟨7, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024x512, .f32⟩
  | .local _ .vmem, ⟨3, _⟩ => ⟨S1x512, .f32⟩
  | .local _ .vmem, ⟨4, _⟩ => ⟨S1x2048x512, .f32⟩
  | .local _ .vmem, ⟨5, _⟩ => ⟨S1x2048x512, .f32⟩
  | .local _ .vmem, ⟨6, _⟩ => ⟨S1x256x512, .f32⟩
  | .local _ .vmem, ⟨7, _⟩ => ⟨S1x256x512, .f32⟩
  | .local _ .vmem, ⟨8, _⟩ => ⟨S1x256x2048, .f32⟩
  | .local _ .vmem, ⟨9, _⟩ => ⟨S1x256x2048, .f32⟩
  | .local _ .vmem, ⟨10, _⟩ => ⟨S2048x512, .bf16⟩
  | .local _ .smem, ⟨0, _⟩ => ⟨S16, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v16 : Index := Scalar.indexCast arg0
  ![v16.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S512x1024_S1024x512_1_0 : S512x1024.Transposes [1, 0] S1024x512
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  iota_S256x2048_d1_w32 : S256x2048.Iotas .tc 32 [1]
  numel1_S1 : S1.numel = 1
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x1024_S1024x512_S256x512_1_0_0_1_n_n_wf : DotDims.WF S256x1024 S1024x512 S256x512 [1] [0] [0] [1] [] []
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x2048x512.size a
  hwx0_3 : ∀ i : grid0.Coords, EltTy.bits .f32 = 32 ∨ (Rect.block (s := S16x2048x512) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S16x2048x512.size a
  hwx0_4 : ∀ i : grid0.Coords, EltTy.bits .f32 = 32 ∨ (Rect.block (s := S16x2048x512) S1x256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x2048x2048.size a
  hwx0_5 : ∀ i : grid0.Coords, EltTy.bits .f32 = 32 ∨ (Rect.block (s := S16x2048x2048) S1x256x2048.size (cc0_transform_5 i) (hinb0_5 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev spec0_0 : Pipeline.WinSpec sig grid0.rank :=
  Pipeline.WinSpec.ofSpec (Memref.whole main_arg0) S1x256x1024.size reads0_0 false false 2 stage0_0 sem0_0 nbuf0_0 hstage0_0

abbrev spec0_1 : Pipeline.WinSpec sig grid0.rank :=
  Pipeline.WinSpec.ofSpec (Memref.whole main_v0) S1024x512.size reads0_1 false true 1 stage0_1 sem0_1 nbuf0_1 hstage0_1

abbrev spec0_2 : Pipeline.WinSpec sig grid0.rank :=
  Pipeline.WinSpec.ofSpec (Memref.whole main_v1) S1x512.size reads0_2 false true 1 stage0_2 sem0_2 nbuf0_2 hstage0_2

abbrev spec0_3 : Pipeline.WinSpec sig grid0.rank :=
  Pipeline.WinSpec.ofSpec (Memref.whole main_arg1) S1x2048x512.size reads0_3 false false 2 stage0_3 sem0_3 nbuf0_3 hstage0_3

abbrev spec0_4 : Pipeline.WinSpec sig grid0.rank :=
  Pipeline.WinSpec.ofSpec (Memref.whole main_v2_0) S1x256x512.size reads0_4 true false 2 stage0_4 sem0_4 nbuf0_4 hstage0_4

abbrev spec0_5 : Pipeline.WinSpec sig grid0.rank :=
  Pipeline.WinSpec.ofSpec (Memref.whole main_v2_1) S1x256x2048.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S16x2048x1024 : Shape := ⟨3, ![16, 2048, 1024]⟩
abbrev S16x2048x512 : Shape := ⟨3, ![16, 2048, 512]⟩
abbrev S16 : Shape := ⟨1, ![16]⟩
abbrev S512x1024 : Shape := ⟨2, ![512, 1024]⟩
abbrev S512 : Shape := ⟨1, ![512]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S1x1x512 : Shape := ⟨3, ![1, 1, 512]⟩
abbrev S16x2048x2048 : Shape := ⟨3, ![16, 2048, 2048]⟩
abbrev S16x1x2048 : Shape := ⟨3, ![16, 1, 2048]⟩
abbrev S_ : Shape := ⟨0, ![]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16, .i32⟩
  | .hbm, ⟨3, _⟩ => ⟨S512x1024, .f32⟩
  | .hbm, ⟨4, _⟩ => ⟨S512, .f32⟩
  | .hbm, ⟨5, _⟩ => ⟨S2048, .i32⟩
  | .hbm, ⟨6, _⟩ => ⟨S1x2048, .i32⟩
  | .hbm, ⟨7, _⟩ => ⟨S16x1, .i32⟩
  | .hbm, ⟨8, _⟩ => ⟨S16x2048, .i32⟩
  | .hbm, ⟨9, _⟩ => ⟨S16x2048, .i32⟩
  | .hbm, ⟨10, _⟩ => ⟨S16x2048, .i1⟩
  | .hbm, ⟨11, _⟩ => ⟨S16x2048x512, .f32⟩
  | .hbm, ⟨12, _⟩ => ⟨S1x1x512, .f32⟩
  | .hbm, ⟨13, _⟩ => ⟨S16x2048x512, .f32⟩
  | .hbm, ⟨14, _⟩ => ⟨S16x2048x512, .f32⟩
  | .hbm, ⟨15, _⟩ => ⟨S16x2048x2048, .f32⟩
  | .hbm, ⟨16, _⟩ => ⟨S16x1x2048, .i1⟩
  | .hbm, ⟨17, _⟩ => ⟨S_, .f32⟩
  | .hbm, ⟨18, _⟩ => ⟨S_, .f32⟩
  | .hbm, ⟨19, _⟩ => ⟨S16x2048x2048, .i1⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S16x2048, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S512x1024_S16x2048x512_2_1_01_0_n_n_wf : DotDims.WF S16x2048x1024 S512x1024 S16x2048x512 [2] [1] [0, 1] [0] [] []
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x1024_S512x1024_S16x2048x512_2_1_01_0_n_n : DotDims S16x2048x1024 S512x1024 S16x2048x512 where
  lhsContracting := [2]
  rhsContracting := [1]
  lhsNonContracting := [0, 1]
  rhsNonContracting := [0]
  lhsBatch := []
  rhsBatch := []
  wf := dot_S16x2048x1024_S512x1024_S16x2048x512_2_1_01_0_n_n_wf
def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.Spec.lean ====
/-
  The mathematics both programs compute, as ONE function of the five argument arrays, element by element over the
  extended reals.

  For batch `bi`, query row `n` and key position `k`:
    proj  bi n e   = (∑ d, dec[bi,n,d] · W[e,d]) + b[e]                     (the linear layer)
    score bi n k   = ∑ e, proj bi n e · emb[bi,k,e]                          (the dot-product scores)
    masked bi n k  = −∞ where k ≥ elen[bi] (signed 32-bit compare), else score bi n k
    rowMax bi n    = the maximum over k of masked bi n k, folded from −∞
    expo bi n k    = exp (masked bi n k − rowMax bi n)
    denom bi n     = ∑ k, expo bi n k
    weight bi n k  = expo bi n k / denom bi n                                (the attention weights)
    context bi n e = ∑ k, weight bi n k · emb[bi,k,e]                        (the context vectors)
  The two results are `context` (shape 16 × 2048 × 512) and `weight` (shape 16 × 2048 × 2048).

  Nothing here needs the inputs to be finite: the kernel and the reference apply these same operations and differ only
  in how the sums are grouped and ordered, and addition and multiplication of extended reals are commutative and
  associative. A fully masked row (elen[bi] ≤ 0) has every masked score −∞ on both sides alike.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The argument and result shapes. -/
abbrev SDec : Shape := ⟨3, ![16, 2048, 1024]⟩
abbrev SEmb : Shape := ⟨3, ![16, 2048, 512]⟩
abbrev SLen : Shape := ⟨1, ![16]⟩
abbrev SW : Shape := ⟨2, ![512, 1024]⟩
abbrev SB : Shape := ⟨1, ![512]⟩
abbrev SAttn : Shape := ⟨3, ![16, 2048, 2048]⟩

/-- Query row `p` of the `ni`-th tile of 256 rows. -/
abbrev row (ni : Fin 8) (p : Fin 256) : Fin 2048 := ⟨256 * ni.val + p.val, by have := ni.isLt; have := p.isLt; omega⟩

/-- The f32 pattern of −∞, read as an extended real (kept as the pattern: the same word stands on both sides). -/
abbrev negInf : EReal := Ideal.ofBits .f32 0xFF800000#32

variable (dec : SDec.Idx → EReal) (emb : SEmb.Idx → EReal) (elen : SLen.Idx → BitVec 32) (W : SW.Idx → EReal)
  (b : SB.Idx → EReal)

/-- The linear layer: `dec[bi,n,:] · W[e,:] + b[e]`. -/
def proj (bi : Fin 16) (n : Fin 2048) (e : Fin 512) : EReal :=
  (∑ d : Fin 1024, dec (ix3 bi n d) * W (ix2 e d)) + b (ix1 e)

/-- The score of query row `n` against key position `k`. -/
def score (bi : Fin 16) (n k : Fin 2048) : EReal :=
  ∑ e : Fin 512, proj dec W b bi n e * emb (ix3 bi k e)

/-- The padding mask: key positions at or past the batch's length score −∞. -/
def masked (bi : Fin 16) (n k : Fin 2048) : EReal :=
  Scalar.select (IntOp.cmpi .sge (BitVec.ofNat 32 k.val) (elen (ix1 bi))) negInf (score dec emb W b bi n k)

/-- The row maximum of the masked scores, folded from −∞. -/
def rowMax (bi : Fin 16) (n : Fin 2048) : EReal :=
  (Finset.univ : Finset (Fin 2048)).fold max negInf (fun k => masked dec emb elen W b bi n k)

/-- The shifted exponential. -/
def expo (bi : Fin 16) (n k : Fin 2048) : EReal :=
  Ideal.exp (masked dec emb elen W b bi n k - rowMax dec emb elen W b bi n)

/-- The softmax denominator. -/
def denom (bi : Fin 16) (n : Fin 2048) : EReal :=
  ∑ k : Fin 2048, expo dec emb elen W b bi n k

/-- The attention weight of key position `k` for query row `n`. -/
def weight (bi : Fin 16) (n k : Fin 2048) : EReal :=
  Ideal.div (expo dec emb elen W b bi n k) (denom dec emb elen W b bi n)

/-- The context vector: the weighted sum of the batch's key rows. -/
def context (bi : Fin 16) (n : Fin 2048) (e : Fin 512) : EReal :=
  ∑ k : Fin 2048, weight dec emb elen W b bi n k * emb (ix3 bi k e)

/-- The second result: the attention weights as an array. -/
def attnArr : SAttn.Idx → EReal := fun i => weight dec emb elen W b (i 0) (i 1) (i 2)

/-- The first result: the context vectors as an array. -/
def ctxArr : SEmb.Idx → EReal := fun i => context dec emb elen W b (i 0) (i 1) (i 2)

/-- The maximum against the fold's own starting value changes nothing. -/
theorem max_init_fold {ι : Type*} (s : Finset ι) (a : EReal) (f : ι → EReal) :
    max a (s.fold max a f) = s.fold max a f :=
  max_eq_right ((Finset.le_fold_max a).mpr (Or.inl le_rfl))

end Cert.Attn

end
-- ==== Proof.RefIsSpec.lean ====
/-
  The reference's two results, stage by stage, are the specification's arrays: `weight` and `context` of Spec.lean.

  Each stage of the reference is read at explicit coordinates (batch `bi`, query row `n`, key position `k`, feature
  `e`) and identified with the specification's function of the same name, bottom-up: the linear layer, the scores, the
  padding mask, the row maximum, the shifted exponential, its row sum, the quotient, and the weighted sum of key rows.
-/
import proofs.«413810_j1314259993034_2_alg».proof.Proof.Gen.ReferenceIdeal.Read
import proofs.«413810_j1314259993034_2_alg».proof.Proof.Spec

noncomputable section

namespace Cert.ReferenceIdeal.RefValue

open Cert.ReferenceIdeal Cert.ReferenceIdeal.Read Idealize.ShloMosaic Idealize.ShloMosaic.ValueIdx Cert.Attn

variable (x0 : (⟨S16x2048x1024, .f32⟩ : BufTy).Contents (Elt Ideal)) (x1 : (⟨S16x2048x512, .f32⟩ : BufTy).Contents (Elt Ideal))
  (x2 : (⟨S16, .i32⟩ : BufTy).Contents (Elt Ideal)) (x3 : (⟨S512x1024, .f32⟩ : BufTy).Contents (Elt Ideal))
  (x4 : (⟨S512, .f32⟩ : BufTy).Contents (Elt Ideal))

/-- The linear layer: the contraction of `dec[bi,n,:]` with `W[e,:]`, plus the bias broadcast along batch and row. -/
theorem v9_eq (bi : Fin 16) (n : Fin 2048) (e : Fin 512) :
    val_main_v9 (F := Ideal) x0 x3 x4 (ix3 bi n e) = proj x0 x3 x4 bi n e := by
  rw [val_main_v9_apply, val_main_v6_apply, val_main_v8_apply, val_main_v7_apply, Ideal.addf_def]
  unfold proj
  refine congrArg₂ (· + ·) (Finset.sum_congr rfl fun d _ => ?_) ?_
  · exact congrArg₂ (· * ·)
      (congrArg x0 (funext fun a => Fin.ext (by match a with | ⟨0, _⟩ => rfl | ⟨1, _⟩ => rfl | ⟨2, _⟩ => rfl)))
      (congrArg x3 (funext fun a => Fin.ext (by match a with | ⟨0, _⟩ => rfl | ⟨1, _⟩ => rfl)))
  · exact congrArg x4 (funext fun a => Fin.ext (by match a with | ⟨0, _⟩ => rfl))

/-- The scores: the contraction over the feature axis of the projected query row with the key row. -/
theorem v10_eq (bi : Fin 16) (n k : Fin 2048) :
    val_main_v10 (F := Ideal) x0 x1 x3 x4 (ix3 bi n k) = score x0 x1 x3 x4 bi n k := by
  rw [val_main_v10_apply]
  unfold score
  refine Finset.sum_congr rfl fun e _ => ?_
  have el : lidx_main_v10 (ix3 bi n k) e = ix3 bi n e :=
    funext fun a => Fin.ext (by match a with | ⟨0, _⟩ => rfl | ⟨1, _⟩ => rfl | ⟨2, _⟩ => rfl)
  have er : ridx_main_v10 (ix3 bi n k) e = ix3 bi k e :=
    funext fun a => Fin.ext (by match a with | ⟨0, _⟩ => rfl | ⟨1, _⟩ => rfl | ⟨2, _⟩ => rfl)
  rw [el, er, v9_eq]

/-- The padding mask: the position counter at `k` is the 32-bit word of `k`, the broadcast length is `elen[bi]`, and
    the filled value is the −∞ word. -/
theorem v12_eq (bi : Fin 16) (n k : Fin 2048) :
    val_main_v12 (F := Ideal) x0 x1 x2 x3 x4 (ix3 bi n k) = masked x0 x1 x2 x3 x4 bi n k := by
  rw [val_main_v12_apply, val_main_call0_v1_apply, val_main_v11_apply, val_main_v5_apply, val_main_v3_apply,
    val_main_v1_apply, val_main_v0_apply, val_main_v4_apply, val_main_v2_apply, val_main_call0_v2_apply,
    val_main_call0_v0_apply, val_main_cst_apply, Ideal.ofBits_def, v10_eq]
  unfold masked
  have ei : idx_main_v2 (idx_main_v4 (idx_main_v11 (idx_main_call0_v1 (ix3 bi n k)))) = ix1 bi :=
    funext fun a => Fin.ext (by match a with | ⟨0, _⟩ => rfl)
  rw [ei]

/-- The key axis put back into a (batch, row) index at position `k` is the index (bi, n, k). -/
theorem lift_ix3 (h : S16x2048x2048.Reduces [2] S16x2048) (bi : Fin 16) (n : Fin 2048) (k : Fin (S16x2048x2048.size 2)) :
    h.lift (ix2 bi n) k = ix3 bi n (⟨k.val, k.isLt⟩ : Fin 2048) := by
  funext c; apply Fin.ext
  match c with | ⟨0, _⟩ => rfl | ⟨1, _⟩ => rfl | ⟨2, _⟩ => rfl

/-- The maximum-reduce over the key axis is the fold of `max` from −∞ over the masked scores of the row. -/
theorem v13_eq (bi : Fin 16) (n : Fin 2048) :
    val_main_v13 (F := Ideal) x0 x1 x2 x3 x4 (ix2 bi n) = rowMax x0 x1 x2 x3 x4 bi n := by
  have h : S16x2048x2048.Reduces [2] S16x2048 := by decide
  unfold val_main_v13
  rw [Host.reduce_eq_fold_single FloatOps.maximumf _ _ Gen.reducesTo_S16x2048x2048_S16x2048_d2 h Gen.h_S_]
  unfold rowMax
  have hf : (val_main_v12 (F := Ideal) x0 x1 x2 x3 x4 ∘ h.lift (ix2 bi n))
      = fun k : Fin 2048 => masked x0 x1 x2 x3 x4 bi n k :=
    funext fun k => (congrArg (val_main_v12 (F := Ideal) x0 x1 x2 x3 x4) (lift_ix3 h bi n k)).trans (v12_eq x0 x1 x2 x3 x4 bi n k)
  exact congrArg (fun f => Finset.fold max negInf f (Finset.univ : Finset (Fin 2048))) hf

/-- The maximum of the −∞ broadcast with the reduced maximum is the row maximum: the fold already starts at −∞. -/
theorem v15_eq (bi : Fin 16) (n : Fin 2048) :
    val_main_v15 (F := Ideal) x0 x1 x2 x3 x4 (ix2 bi n) = rowMax x0 x1 x2 x3 x4 bi n := by
  rw [val_main_v15_apply, val_main_v14_apply, val_main_cst_1_apply, v13_eq, Ideal.maximumf_def, Ideal.ofBits_def]
  unfold rowMax
  exact max_init_fold _ _ _

/-- The shifted exponential: the masked score minus the row maximum broadcast along the key axis, exponentiated. -/
theorem v19_eq (bi : Fin 16) (n k : Fin 2048) :
    val_main_v19 (F := Ideal) x0 x1 x2 x3 x4 (ix3 bi n k) = expo x0 x1 x2 x3 x4 bi n k := by
  rw [val_main_v19_apply, val_main_v18_apply, val_main_v17_apply, val_main_v16_apply, v12_eq]
  have ei : idx_main_v16 (idx_main_v17 (ix3 bi n k)) = ix2 bi n :=
    funext fun a => Fin.ext (by match a with | ⟨0, _⟩ => rfl | ⟨1, _⟩ => rfl)
  rw [ei, v15_eq, Ideal.hostUnary_exp_def, Ideal.subf_def]
  rfl

/-- The softmax denominator: the add-reduce over the key axis starts from the zero word, which is 0. -/
theorem v20_eq (bi : Fin 16) (n : Fin 2048) :
    val_main_v20 (F := Ideal) x0 x1 x2 x3 x4 (ix2 bi n) = denom x0 x1 x2 x3 x4 bi n := by
  rw [val_main_v20_apply, val_main_cst_2_apply, Ideal.ofBits_def, Ideal.ofBits_zero_f32, zero_add]
  unfold denom
  refine Finset.sum_congr rfl fun k _ => ?_
  have ei : idx_main_v20 (ix2 bi n) k = ix3 bi n k :=
    funext fun a => Fin.ext (by match a with | ⟨0, _⟩ => rfl | ⟨1, _⟩ => rfl | ⟨2, _⟩ => rfl)
  rw [ei, v19_eq]

/-- The attention weight: the shifted exponential over the row's denominator broadcast along the key axis. -/
theorem v23_eq (bi : Fin 16) (n k : Fin 2048) :
    val_main_v23 (F := Ideal) x0 x1 x2 x3 x4 (ix3 bi n k) = weight x0 x1 x2 x3 x4 bi n k := by
  rw [val_main_v23_apply, val_main_v22_apply, val_main_v21_apply, v19_eq]
  have ei : idx_main_v21 (idx_main_v22 (ix3 bi n k)) = ix2 bi n :=
    funext fun a => Fin.ext (by match a with | ⟨0, _⟩ => rfl | ⟨1, _⟩ => rfl)
  rw [ei, v20_eq, Ideal.hostDivf_def]
  rfl

/-- The context vector: the contraction over the key axis of the weights with the key rows. -/
theorem v24_eq (bi : Fin 16) (n : Fin 2048) (e : Fin 512) :
    val_main_v24 (F := Ideal) x0 x1 x2 x3 x4 (ix3 bi n e) = context x0 x1 x2 x3 x4 bi n e := by
  rw [val_main_v24_apply]
  unfold context
  refine Finset.sum_congr rfl fun k _ => ?_
  have el : lidx_main_v24 (ix3 bi n e) k = ix3 bi n k :=
    funext fun a => Fin.ext (by match a with | ⟨0, _⟩ => rfl | ⟨1, _⟩ => rfl | ⟨2, _⟩ => rfl)
  have er : ridx_main_v24 (ix3 bi n e) k = ix3 bi k e :=
    funext fun a => Fin.ext (by match a with | ⟨0, _⟩ => rfl | ⟨1, _⟩ => rfl | ⟨2, _⟩ => rfl)
  rw [el, er, v23_eq]

/-- The reference's attention weights are the specification's. -/
theorem attn_eq : val_main_v23 (F := Ideal) x0 x1 x2 x3 x4 = attnArr x0 x1 x2 x3 x4 := by
  funext i
  obtain ⟨bi, n, k, rfl⟩ : ∃ (bi : Fin 16) (n k : Fin 2048), i = ix3 bi n k := ⟨i 0, i 1, i 2, eq_ix3 i⟩
  rw [v23_eq]
  rfl

/-- The reference's context vectors are the specification's. -/
theorem ctx_eq : val_main_v24 (F := Ideal) x0 x1 x2 x3 x4 = ctxArr x0 x1 x2 x3 x4 := by
  funext i
  obtain ⟨bi, n, e, rfl⟩ : ∃ (bi : Fin 16) (n : Fin 2048) (e : Fin 512), i = ix3 bi n e := ⟨i 0, i 1, i 2, eq_ix3 i⟩
  rw [v24_eq]
  rfl

end Cert.ReferenceIdeal.RefValue

end
-- ==== Proof.KernelPieces.lean ====
/-
  What one grid point's body leaves in each buffer it stores into, as a function of the blocks it loaded — read off the
  stores the generated run found. The body has two cases. At the first query tile of a batch (tile coordinate 0) it
  first caches the batch's key rows in the scratch buffer; at every other tile it leaves the scratch as the previous
  point left it. In both cases it stores the tile of attention weights (a function of the query tile, the transposed
  weight matrix, the bias row, the key rows and the batch's length word) and the tile of context vectors (those
  weights times the cached key rows). Stated for every float instance.
-/
import proofs.«413810_j1314259993034_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The length word the body reads at grid point `i`: the table's entry at the point's batch coordinate. -/
def word (c : Dev nD) (i : grid0.Coords) (xt0 : TbBuf0 (F := F) c tbM0_0) : Elt F .i32 :=
  View.readAt (Elt F) tbM0_0.view (Rect.unit (s := S16) (k0_off1 i) S1.size (Facts₀.k0_off1_inb i)).toLoadRect xt0
    (Shape.Idx.first (by show 0 < S1.numel; rw [Facts₀.numel1_S1]; exact Nat.one_pos))

/-- First tile of a batch: the scratch ends holding the key rows it was given to cache. -/
theorem scratch_first (c : Dev nD) (i : grid0.Coords) (arg3 : Memref sig .tc .vmem S1x256x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x2048x512 .f32) (harg6 : arg6.IsWhole) (arg7 : Memref sig .tc .vmem S1x256x512 .f32) (harg7 : arg7.IsWhole) (arg8 : Memref sig .tc .vmem S1x256x2048 .f32) (harg8 : arg8.IsWhole) (arg9 : Memref sig .tc .vmem S2048x512 .bf16) (harg9 : arg9.IsWhole) (hc0 : cond0_0 i)
    (x0 : Vec F S1x256x1024 .f32) (x1 : Vec F S1024x512 .f32) (x2 : Vec F S1x512 .f32) (x3 : Vec F S1x2048x512 .f32) (xt0 : TbBuf0 (F := F) c tbM0_0) :
    sout0_A_0 c i arg3 harg3 arg4 harg4 arg5 harg5 arg6 harg6 arg7 harg7 arg8 harg8 arg9 harg9 hc0 x0 x1 x2 x3 xt0 = k0_pay2 x3 := by
  unfold sout0_A_0
  rw [View.read_writes_eq_canon _ _ _ (scover0_A_0 c i arg3 harg3 arg4 harg4 arg5 harg5 arg6 harg6 arg7 harg7 arg8 harg8 arg9 harg9 hc0 x0 x1 x2 x3 xt0)]
  unfold kernelRun0_A
  dsimp only
  sl_unfold_words
  rw [View.canon_unit_zero hz2]
  simp only [View.readAt_eq_ld, harg3.read_unread, harg4.read_unread, harg5.read_unread, harg6.read_unread,
    View.ld_unit_zero (S := S1x256x1024) hz3, View.ld_unit_zero (S := S1024x512) hz2, View.ld_unit_zero (S := S1x512) hz2,
    View.ld_unit_zero (S := S1x2048x512) hz3]

/-- First tile of a batch: the attention-weight tile. -/
theorem attn_first (c : Dev nD) (i : grid0.Coords) (arg3 : Memref sig .tc .vmem S1x256x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x2048x512 .f32) (harg6 : arg6.IsWhole) (arg7 : Memref sig .tc .vmem S1x256x512 .f32) (harg7 : arg7.IsWhole) (arg8 : Memref sig .tc .vmem S1x256x2048 .f32) (harg8 : arg8.IsWhole) (arg9 : Memref sig .tc .vmem S2048x512 .bf16) (harg9 : arg9.IsWhole) (hc0 : cond0_0 i)
    (x0 : Vec F S1x256x1024 .f32) (x1 : Vec F S1024x512 .f32) (x2 : Vec F S1x512 .f32) (x3 : Vec F S1x2048x512 .f32) (xt0 : TbBuf0 (F := F) c tbM0_0) :
    out0_A_5 c i arg3 harg3 arg4 harg4 arg5 harg5 arg6 harg6 arg7 harg7 arg8 harg8 arg9 harg9 hc0 x0 x1 x2 x3 xt0 = k0_pay4 x0 x1 x2 x3 (word c i xt0) := by
  unfold out0_A_5
  rw [View.read_writes_eq_canon _ _ _ (cover0_A_5 c i arg3 harg3 arg4 harg4 arg5 harg5 arg6 harg6 arg7 harg7 arg8 harg8 arg9 harg9 hc0 x0 x1 x2 x3 xt0)]
  unfold kernelRun0_A
  dsimp only
  sl_unfold_words
  rw [View.canon_unit_zero hz3]
  simp only [View.readAt_eq_ld, harg3.read_unread, harg4.read_unread, harg5.read_unread, harg6.read_unread,
    View.ld_unit_zero (S := S1x256x1024) hz3, View.ld_unit_zero (S := S1024x512) hz2, View.ld_unit_zero (S := S1x512) hz2,
    View.ld_unit_zero (S := S1x2048x512) hz3]
  rfl

/-- First tile of a batch: the context tile, the weights times the key rows just cached. -/
theorem ctx_first (c : Dev nD) (i : grid0.Coords) (arg3 : Memref sig .tc .vmem S1x256x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x2048x512 .f32) (harg6 : arg6.IsWhole) (arg7 : Memref sig .tc .vmem S1x256x512 .f32) (harg7 : arg7.IsWhole) (arg8 : Memref sig .tc .vmem S1x256x2048 .f32) (harg8 : arg8.IsWhole) (arg9 : Memref sig .tc .vmem S2048x512 .bf16) (harg9 : arg9.IsWhole) (hc0 : cond0_0 i)
    (x0 : Vec F S1x256x1024 .f32) (x1 : Vec F S1024x512 .f32) (x2 : Vec F S1x512 .f32) (x3 : Vec F S1x2048x512 .f32) (xt0 : TbBuf0 (F := F) c tbM0_0) :
    out0_A_4 c i arg3 harg3 arg4 harg4 arg5 harg5 arg6 harg6 arg7 harg7 arg8 harg8 arg9 harg9 hc0 x0 x1 x2 x3 xt0 = k0_pay1 (k0_pay3 x0 x1 x2 x3 (word c i xt0)) (k0_pay2 x3) := by
  unfold out0_A_4
  rw [View.read_writes_eq_canon _ _ _ (cover0_A_4 c i arg3 harg3 arg4 harg4 arg5 harg5 arg6 harg6 arg7 harg7 arg8 harg8 arg9 harg9 hc0 x0 x1 x2 x3 xt0)]
  unfold kernelRun0_A
  dsimp only
  sl_unfold_words
  rw [View.canon_unit_zero hz3]
  simp only [View.readAt_eq_ld, harg3.read_unread, harg4.read_unread, harg5.read_unread, harg6.read_unread,
    View.ld_unit_zero (S := S1x256x1024) hz3, View.ld_unit_zero (S := S1024x512) hz2, View.ld_unit_zero (S := S1x512) hz2,
    View.ld_unit_zero (S := S1x2048x512) hz3, View.readCov_unit_zero (S := S2048x512) _ hz2]
  rfl

/-- A later tile: the attention-weight tile, the same function of the loaded blocks. -/
theorem attn_later (c : Dev nD) (i : grid0.Coords) (arg3 : Memref sig .tc .vmem S1x256x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x2048x512 .f32) (harg6 : arg6.IsWhole) (arg7 : Memref sig .tc .vmem S1x256x512 .f32) (harg7 : arg7.IsWhole) (arg8 : Memref sig .tc .vmem S1x256x2048 .f32) (harg8 : arg8.IsWhole) (arg9 : Memref sig .tc .vmem S2048x512 .bf16) (harg9 : arg9.IsWhole) (hc0 : ¬cond0_0 i)
    (x0 : Vec F S1x256x1024 .f32) (x1 : Vec F S1024x512 .f32) (x2 : Vec F S1x512 .f32) (x3 : Vec F S1x2048x512 .f32) (xt0 : TbBuf0 (F := F) c tbM0_0) (xs0 : Vec F S2048x512 .bf16) :
    out0_B_5 c i arg3 harg3 arg4 harg4 arg5 harg5 arg6 harg6 arg7 harg7 arg8 harg8 arg9 harg9 hc0 x0 x1 x2 x3 xt0 xs0 = k0_pay4 x0 x1 x2 x3 (word c i xt0) := by
  unfold out0_B_5
  rw [View.read_writes_eq_canon _ _ _ (cover0_B_5 c i arg3 harg3 arg4 harg4 arg5 harg5 arg6 harg6 arg7 harg7 arg8 harg8 arg9 harg9 hc0 x0 x1 x2 x3 xt0 xs0)]
  unfold kernelRun0_B
  dsimp only
  sl_unfold_words
  rw [View.canon_unit_zero hz3]
  simp only [View.readAt_eq_ld, harg3.read_unread, harg4.read_unread, harg5.read_unread, harg6.read_unread,
    View.ld_unit_zero (S := S1x256x1024) hz3, View.ld_unit_zero (S := S1024x512) hz2, View.ld_unit_zero (S := S1x512) hz2,
    View.ld_unit_zero (S := S1x2048x512) hz3]
  rfl

/-- A later tile: the context tile, the weights times whatever the scratch holds. -/
theorem ctx_later (c : Dev nD) (i : grid0.Coords) (arg3 : Memref sig .tc .vmem S1x256x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x2048x512 .f32) (harg6 : arg6.IsWhole) (arg7 : Memref sig .tc .vmem S1x256x512 .f32) (harg7 : arg7.IsWhole) (arg8 : Memref sig .tc .vmem S1x256x2048 .f32) (harg8 : arg8.IsWhole) (arg9 : Memref sig .tc .vmem S2048x512 .bf16) (harg9 : arg9.IsWhole) (hc0 : ¬cond0_0 i)
    (x0 : Vec F S1x256x1024 .f32) (x1 : Vec F S1024x512 .f32) (x2 : Vec F S1x512 .f32) (x3 : Vec F S1x2048x512 .f32) (xt0 : TbBuf0 (F := F) c tbM0_0) (xs0 : Vec F S2048x512 .bf16) :
    out0_B_4 c i arg3 harg3 arg4 harg4 arg5 harg5 arg6 harg6 arg7 harg7 arg8 harg8 arg9 harg9 hc0 x0 x1 x2 x3 xt0 xs0 = k0_pay1 (k0_pay3 x0 x1 x2 x3 (word c i xt0)) xs0 := by
  unfold out0_B_4
  rw [View.read_writes_eq_canon _ _ _ (cover0_B_4 c i arg3 harg3 arg4 harg4 arg5 harg5 arg6 harg6 arg7 harg7 arg8 harg8 arg9 harg9 hc0 x0 x1 x2 x3 xt0 xs0)]
  unfold kernelRun0_B
  dsimp only
  sl_unfold_words
  rw [View.canon_unit_zero hz3]
  simp only [View.readAt_eq_ld, harg3.read_unread, harg4.read_unread, harg5.read_unread, harg6.read_unread,
    View.ld_unit_zero (S := S1x256x1024) hz3, View.ld_unit_zero (S := S1024x512) hz2, View.ld_unit_zero (S := S1x512) hz2,
    View.ld_unit_zero (S := S1x2048x512) hz3, harg9.read_unread, View.ld_unit_zero (S := S2048x512) hz2]
  rfl

end Cert.KernelIdeal.Pieces

end
-- ==== Proof.KernelBody.lean ====
/-
  The kernel body's arithmetic at an index, over the extended reals: what each stored value holds as a function of
  the values the body loaded.
-/
import proofs.«413810_j1314259993034_2_alg».proof.Proof.Gen.KernelIdeal.Skeleton
import proofs.«413810_j1314259993034_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Attn

variable (dec : SDec.Idx → EReal) (emb : SEmb.Idx → EReal) (elen : SLen.Idx → BitVec 32) (W : SW.Idx → EReal)
  (b : SB.Idx → EReal)

/-! ## Layout operations of a kept-dimension column, read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of row values, given a unit second axis and broadcast along it: entry `(p, c)` is the value of row `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Layout

/-! ## The three block products, read at an entry

Into the zero accumulator each product is the plain sum over its one contracted axis; the operands' indices at an
output entry and a contraction position are read off the product's dimension numbers, axis by axis. -/

theorem lhs_proj_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhs_proj_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhs_proj_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhs_proj_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl
/-- The linear layer's product: rows of the left operand against columns of the right one. -/
theorem matmul_proj_apply {φ₁ φ₂ : FTy} (prec : Option ContractPrecision) (x : FVec Ideal S256x1024 φ₁) (y : FVec Ideal S1024x512 φ₂)
    (r : Fin 256) (c : Fin 512) :
    matmul dot_S256x1024_S1024x512_S256x512_1_0_0_1_n_n prec x y (constant (F := Ideal) S256x512 .f32 0x00000000#32) (ix2 r c)
      = ∑ k : Fin 1024, x (ix2 r k) * y (ix2 k c) := by
  refine (Ideal.matmul_constant_zero_apply _ prec x y (ix2 r c)).trans ?_
  rw [← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 r c) ((contrEquiv1 dot_S256x1024_S1024x512_S256x512_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S256x1024_S1024x512_S256x512_1_0_0_1_n_n.rhsIdx (ix2 r c) ((contrEquiv1 dot_S256x1024_S1024x512_S256x512_1_0_0_1_n_n 1024 rfl rfl).symm k) = ix2 k c := funext fun a => Fin.ext (by
    match a with
    | ⟨0, _⟩ => exact (rhs_proj_0 _ _).trans hk
    | ⟨1, _⟩ => exact rhs_proj_1 _ _)
  rw [el, er]

theorem lhs_score_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_score_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_score_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_score_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q
/-- The score product contracts the LAST axis of both operands: rows against rows. -/
theorem matmul_score_apply {φ₁ φ₂ : FTy} (prec : Option ContractPrecision) (x : FVec Ideal S256x512 φ₁) (y : FVec Ideal S2048x512 φ₂)
    (r : Fin 256) (c : Fin 2048) :
    matmul dot_S256x512_S2048x512_S256x2048_1_1_0_0_n_n prec x y (constant (F := Ideal) S256x2048 .f32 0x00000000#32) (ix2 r c)
      = ∑ k : Fin 512, x (ix2 r k) * y (ix2 c k) := by
  refine (Ideal.matmul_constant_zero_apply _ prec x y (ix2 r c)).trans ?_
  rw [← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r c) ((contrEquiv1 dot_S256x512_S2048x512_S256x2048_1_1_0_0_n_n 512 rfl rfl).symm k) = ix2 r k := funext fun a => Fin.ext (by
    match a with
    | ⟨0, _⟩ => exact lhs_score_0 _ _
    | ⟨1, _⟩ => exact (lhs_score_1 _ _).trans hk)
  have er : dot_S256x512_S2048x512_S256x2048_1_1_0_0_n_n.rhsIdx (ix2 r c) ((contrEquiv1 dot_S256x512_S2048x512_S256x2048_1_1_0_0_n_n 512 rfl rfl).symm k) = ix2 c k := funext fun a => Fin.ext (by
    match a with
    | ⟨0, _⟩ => exact rhs_score_0 _ _
    | ⟨1, _⟩ => exact (rhs_score_1 _ _).trans hk)
  rw [el, er]

theorem lhs_ctx_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_ctx_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhs_ctx_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhs_ctx_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl
/-- The context product: rows of the weights against columns of the key rows. -/
theorem matmul_ctx_apply {φ₁ φ₂ : FTy} (prec : Option ContractPrecision) (x : FVec Ideal S256x2048 φ₁) (y : FVec Ideal S2048x512 φ₂)
    (r : Fin 256) (c : Fin 512) :
    matmul dot_S256x2048_S2048x512_S256x512_1_0_0_1_n_n prec x y (constant (F := Ideal) S256x512 .f32 0x00000000#32) (ix2 r c)
      = ∑ k : Fin 2048, x (ix2 r k) * y (ix2 k c) := by
  refine (Ideal.matmul_constant_zero_apply _ prec x y (ix2 r c)).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r c) ((contrEquiv1 dot_S256x2048_S2048x512_S256x512_1_0_0_1_n_n 2048 rfl rfl).symm k) = ix2 r k := funext fun a => Fin.ext (by
    match a with
    | ⟨0, _⟩ => exact lhs_ctx_0 _ _
    | ⟨1, _⟩ => exact (lhs_ctx_1 _ _).trans hk)
  have er : dot_S256x2048_S2048x512_S256x512_1_0_0_1_n_n.rhsIdx (ix2 r c) ((contrEquiv1 dot_S256x2048_S2048x512_S256x512_1_0_0_1_n_n 2048 rfl rfl).symm k) = ix2 k c := funext fun a => Fin.ext (by
    match a with
    | ⟨0, _⟩ => exact (rhs_ctx_0 _ _).trans hk
    | ⟨1, _⟩ => exact rhs_ctx_1 _ _)
  rw [el, er]

/-! ## The two lane reductions, read at a row -/

/-- A row's maximum: the fold of `max` from the accumulator's value over the row's entries. -/
theorem rowMax_apply (src : FVec Ideal S256x2048 .f32) (acc : BitVec (FTy.bits .f32)) (h : S256x2048.Reduces [1] S256)
    (hφ : FKind.Formats .f32) (hacc : acc = FKind.maximumf.neutral .f32 hφ) (p : Fin 256) :
    multiReduction (F := Ideal) .maximumf [1] S256 src acc h hφ hacc (ix1 p)
      = (Finset.univ : Finset (Fin 2048)).fold max (Ideal.ofBits .f32 acc) (fun k => src (ix2 p k)) := by
  refine (Ideal.multiReduction_maximumf_single src acc h hφ hacc (ix1 p)).trans ?_
  have e : (src ∘ h.lift (ix1 p)) = fun k : Fin 2048 => src (ix2 p k) := funext fun k => congrArg src (funext fun a => Fin.ext (by
    match a with
    | ⟨0, _⟩ => rfl
    | ⟨1, _⟩ => rfl))
  rw [e]
  rfl

/-- A row's sum: the sum of the row's entries (no initial term). -/
theorem rowSum_apply (src : FVec Ideal S256x2048 .f32) (acc : BitVec (FTy.bits .f32)) (h : S256x2048.Reduces [1] S256)
    (hφ : FKind.Formats .f32) (hacc : acc = FKind.add.neutral .f32 hφ) (p : Fin 256) :
    multiReduction (F := Ideal) .add [1] S256 src acc h hφ hacc (ix1 p) = ∑ k : Fin 2048, src (ix2 p k) := by
  refine (Ideal.multiReduction_add_single src acc h hφ hacc (ix1 p)).trans ?_
  refine Finset.sum_congr rfl fun k _ => congrArg src (funext fun a => Fin.ext (by
    match a with
    | ⟨0, _⟩ => rfl
    | ⟨1, _⟩ => rfl))

/-! ## The attention tile, stage by stage in the specification's order -/

/-- The projected tile: the query block times the transposed weight matrix, plus the bias row. -/
def projTile (v3 : Vec Ideal S1x256x1024 .f32) (v5 : Vec Ideal S1024x512 .f32) (v8 : Vec Ideal S1x512 .f32) :
    FVec Ideal S256x512 .f32 :=
  addf
    (matmul (φ₁ := .f32) (φ₂ := .f32) dot_S256x1024_S1024x512_S256x512_1_0_0_1_n_n (some .fp32)
      (shapeCast S256x1024 v3 shapeCasts_S1x256x1024_S256x1024) (shapeCast S1024x512 v5 shapeCasts_S1024x512_S1024x512)
      (constant S256x512 .f32 0x00000000#32))
    (broadcastTo S256x512 (shapeCast S1x512 v8 shapeCasts_S1x512_S1x512) broadcasts_S1x512_S256x512)

/-- The score tile: the projected rows against the key rows. -/
def scoreTile (v3 : Vec Ideal S1x256x1024 .f32) (v5 : Vec Ideal S1024x512 .f32) (v8 : Vec Ideal S1x512 .f32)
    (v12 : Vec Ideal S1x2048x512 .f32) : FVec Ideal S256x2048 .f32 :=
  matmul (φ₁ := .f32) (φ₂ := .f32) dot_S256x512_S2048x512_S256x2048_1_1_0_0_n_n (some .fp32) (projTile v3 v5 v8)
    (shapeCast S2048x512 v12 shapeCasts_S1x2048x512_S2048x512) (constant S256x2048 .f32 0x00000000#32)

/-- The masked tile: −∞ where the key position is at or past the length. -/
def maskedTile (v3 : Vec Ideal S1x256x1024 .f32) (v5 : Vec Ideal S1024x512 .f32) (v8 : Vec Ideal S1x512 .f32)
    (v12 : Vec Ideal S1x2048x512 .f32) (v17 : Elt Ideal .i32) : FVec Ideal S256x2048 .f32 :=
  select (cmpi .sge (iota .tc S256x2048 32 [1] iota_S256x2048_d1_w32) (broadcast S256x2048 v17))
    (broadcast S256x2048 (Scalar.ofBits (F := Ideal) .f32 0xFF800000#32)) (scoreTile v3 v5 v8 v12)

/-- The shifted exponentials: each masked score minus its row's maximum, exponentiated. -/
def expoTile (v3 : Vec Ideal S1x256x1024 .f32) (v5 : Vec Ideal S1024x512 .f32) (v8 : Vec Ideal S1x512 .f32)
    (v12 : Vec Ideal S1x2048x512 .f32) (v17 : Elt Ideal .i32) : FVec Ideal S256x2048 .f32 :=
  exp (subf (maskedTile v3 v5 v8 v12 v17)
    (broadcastTo S256x2048
      (shapeCast S256x1
        (multiReduction .maximumf [1] S256 (maskedTile v3 v5 v8 v12 v17) 0xFF800000#32 reduces_S256x2048_S256 (.inl rfl) rfl)
        shapeCasts_S256_S256x1)
      broadcasts_S256x1_S256x2048))

/-- The weight tile: each shifted exponential over its row's sum. -/
def weightTile (v3 : Vec Ideal S1x256x1024 .f32) (v5 : Vec Ideal S1024x512 .f32) (v8 : Vec Ideal S1x512 .f32)
    (v12 : Vec Ideal S1x2048x512 .f32) (v17 : Elt Ideal .i32) : FVec Ideal S256x2048 .f32 :=
  divf (expoTile v3 v5 v8 v12 v17)
    (broadcastTo S256x2048
      (shapeCast S256x1
        (multiReduction .add [1] S256 (expoTile v3 v5 v8 v12 v17) 0x00000000#32 reduces_S256x2048_S256 (.inl rfl) rfl)
        shapeCasts_S256_S256x1)
      broadcasts_S256x1_S256x2048)

/-- The kernel's attention payload is the weight tile: the same operations in the same order. -/
theorem k0_pay3_eq_weightTile (v3 : Vec Ideal S1x256x1024 .f32) (v5 : Vec Ideal S1024x512 .f32) (v8 : Vec Ideal S1x512 .f32)
    (v12 : Vec Ideal S1x2048x512 .f32) (v17 : Elt Ideal .i32) :
    k0_pay3 (F := Ideal) v3 v5 v8 v12 v17 = weightTile v3 v5 v8 v12 v17 := rfl

section Stages
variable (bi : Fin 16) (ni : Fin 8)
  (v3 : Vec Ideal S1x256x1024 .f32) (v5 : Vec Ideal S1024x512 .f32) (v8 : Vec Ideal S1x512 .f32)
  (v12 : Vec Ideal S1x2048x512 .f32) (v17 : Elt Ideal .i32)
  (h3 : ∀ (p : Fin 256) (d : Fin 1024), v3 (ix3 (0 : Fin 1) p d) = dec (ix3 bi (row ni p) d))
  (h5 : ∀ (d : Fin 1024) (e : Fin 512), v5 (ix2 d e) = W (ix2 e d))
  (h8 : ∀ e : Fin 512, v8 (ix2 (0 : Fin 1) e) = b (ix1 e))
  (h12 : ∀ (k : Fin 2048) (e : Fin 512), v12 (ix3 (0 : Fin 1) k e) = emb (ix3 bi k e))
  (h17 : v17 = elen (ix1 bi))
include h3 h5 h8

/-- Entry (p, e) of the projected tile is the linear layer's output `e` for query row `256·ni + p`. -/
theorem projTile_apply (p : Fin 256) (e : Fin 512) : projTile v3 v5 v8 (ix2 p e) = proj dec W b bi (row ni p) e := by
  unfold projTile proj
  refine (addf_apply _ _ _).trans ?_
  refine congrArg₂ (· + ·) ?_ ?_
  · refine (matmul_proj_apply _ _ _ p e).trans (Finset.sum_congr rfl fun d _ => ?_)
    refine congrArg₂ (· * ·) ?_ ?_
    · exact (shapeCast_1ab_ab_apply v3 _ p d).trans (h3 p d)
    · exact (congrFun (shapeCast_self v5 _) _).trans (h5 d e)
  · refine (broadcastTo_1b_ab_apply _ _ p e).trans ?_
    exact (congrFun (shapeCast_self v8 _) _).trans (h8 e)

include h12

/-- Entry (p, k) of the score tile is the score of query row `256·ni + p` against key position `k`. -/
theorem scoreTile_apply (p : Fin 256) (k : Fin 2048) :
    scoreTile v3 v5 v8 v12 (ix2 p k) = score dec emb W b bi (row ni p) k := by
  unfold scoreTile score
  refine (matmul_score_apply _ _ _ p k).trans (Finset.sum_congr rfl fun e _ => ?_)
  refine congrArg₂ (· * ·) ?_ ?_
  · exact projTile_apply dec W b bi ni v3 v5 v8 h3 h5 h8 p e
  · exact (shapeCast_1ab_ab_apply v12 _ k e).trans (h12 k e)

include h17

/-- Entry (p, k) of the masked tile is the masked score. -/
theorem maskedTile_apply (p : Fin 256) (k : Fin 2048) :
    maskedTile v3 v5 v8 v12 v17 (ix2 p k) = masked dec emb elen W b bi (row ni p) k := by
  unfold maskedTile masked
  refine (select_apply _ _ _ _).trans ?_
  refine congrArg₂ (fun c s => Scalar.select c negInf s) ?_ ?_
  · show IntOp.cmpi .sge (iota .tc S256x2048 32 [1] iota_S256x2048_d1_w32 (ix2 p k)) v17 = _
    rw [iota_single_apply, h17]
  · exact scoreTile_apply dec emb W b bi ni v3 v5 v8 v12 h3 h5 h8 h12 p k

/-- Entry (p, k) of the exponential tile is the shifted exponential. -/
theorem expoTile_apply (p : Fin 256) (k : Fin 2048) :
    expoTile v3 v5 v8 v12 v17 (ix2 p k) = expo dec emb elen W b bi (row ni p) k := by
  unfold expoTile expo
  show Ideal.exp (_ - _) = _
  refine congrArg Ideal.exp (congrArg₂ (· - ·) ?_ ?_)
  · exact maskedTile_apply dec emb elen W b bi ni v3 v5 v8 v12 v17 h3 h5 h8 h12 h17 p k
  · refine (column_apply _ _ _ p k).trans ?_
    refine (rowMax_apply _ _ _ _ _ p).trans ?_
    unfold rowMax
    exact congrArg (fun f => (Finset.univ : Finset (Fin 2048)).fold max negInf f)
      (funext fun k' => maskedTile_apply dec emb elen W b bi ni v3 v5 v8 v12 v17 h3 h5 h8 h12 h17 p k')

/-- Entry (p, k) of the weight tile is the attention weight. -/
theorem weightTile_apply (p : Fin 256) (k : Fin 2048) :
    weightTile v3 v5 v8 v12 v17 (ix2 p k) = weight dec emb elen W b bi (row ni p) k := by
  unfold weightTile weight
  refine (divf_apply _ _ _).trans (congrArg₂ Ideal.div ?_ ?_)
  · exact expoTile_apply dec emb elen W b bi ni v3 v5 v8 v12 v17 h3 h5 h8 h12 h17 p k
  · refine (column_apply _ _ _ p k).trans ?_
    refine (rowSum_apply _ _ _ _ _ p).trans ?_
    unfold denom
    exact Finset.sum_congr rfl fun k' _ => expoTile_apply dec emb elen W b bi ni v3 v5 v8 v12 v17 h3 h5 h8 h12 h17 p k'

end Stages

/-! ## The four payloads -/

/-- The attention-weight tile: with the loaded blocks being tile `ni` of batch `bi`'s query rows, the transposed weight
    matrix, the bias row, batch `bi`'s key rows and batch `bi`'s length, entry (p, k) is the specification's weight
    of key position `k` for query row `256·ni + p`. -/
theorem pay3_apply (bi : Fin 16) (ni : Fin 8)
    (v3 : Vec Ideal S1x256x1024 .f32) (v5 : Vec Ideal S1024x512 .f32) (v8 : Vec Ideal S1x512 .f32)
    (v12 : Vec Ideal S1x2048x512 .f32) (v17 : Elt Ideal .i32)
    (h3 : ∀ (p : Fin 256) (d : Fin 1024), v3 (ix3 (0 : Fin 1) p d) = dec (ix3 bi (row ni p) d))
    (h5 : ∀ (d : Fin 1024) (e : Fin 512), v5 (ix2 d e) = W (ix2 e d))
    (h8 : ∀ e : Fin 512, v8 (ix2 (0 : Fin 1) e) = b (ix1 e))
    (h12 : ∀ (k : Fin 2048) (e : Fin 512), v12 (ix3 (0 : Fin 1) k e) = emb (ix3 bi k e))
    (h17 : v17 = elen (ix1 bi))
    (p : Fin 256) (k : Fin 2048) :
    k0_pay3 (F := Ideal) v3 v5 v8 v12 v17 (ix2 p k) = weight dec emb elen W b bi (row ni p) k :=
  (congrFun (k0_pay3_eq_weightTile v3 v5 v8 v12 v17) (ix2 p k)).trans
    (weightTile_apply dec emb elen W b bi ni v3 v5 v8 v12 v17 h3 h5 h8 h12 h17 p k)

/-- The stored attention tile is that tile with a leading unit axis. -/
theorem pay4_apply (v3 : Vec Ideal S1x256x1024 .f32) (v5 : Vec Ideal S1024x512 .f32) (v8 : Vec Ideal S1x512 .f32)
    (v12 : Vec Ideal S1x2048x512 .f32) (v17 : Elt Ideal .i32) (p : Fin 256) (k : Fin 2048) :
    k0_pay4 (F := Ideal) v3 v5 v8 v12 v17 (ix3 (0 : Fin 1) p k) = k0_pay3 (F := Ideal) v3 v5 v8 v12 v17 (ix2 p k) := by
  unfold k0_pay4
  exact shapeCast_ab_1ab_apply _ _ (0 : Fin 1) p k

/-- The context tile: the weights' rows times the cached key rows, summed over the key positions. -/
theorem pay1_apply (v30 : FVec Ideal S256x2048 .f32) (v34 : Vec Ideal S2048x512 .bf16) (p : Fin 256) (e : Fin 512) :
    k0_pay1 (F := Ideal) v30 v34 (ix3 (0 : Fin 1) p e) = ∑ k : Fin 2048, v30 (ix2 p k) * v34 (ix2 k e) := by
  unfold k0_pay1
  refine (shapeCast_ab_1ab_apply _ _ (0 : Fin 1) p e).trans ?_
  exact matmul_ctx_apply none (truncf .bf16 v30 bitsLt_bf16_f32) v34 p e

/-- The cached key rows: the loaded block, its unit axis dropped (the change of float format is the identity). -/
theorem pay2_apply (v40 : Vec Ideal S1x2048x512 .f32) (k : Fin 2048) (e : Fin 512) :
    k0_pay2 (F := Ideal) v40 (ix2 k e) = v40 (ix3 (0 : Fin 1) k e) := by
  unfold k0_pay2
  refine (congrFun (shapeCast_self _ _) _).trans ?_
  exact shapeCast_1ab_ab_apply v40 _ k e

end Cert.KernelIdeal.Body

end
-- ==== Proof.KernelRun.lean ====
/-
  The kernel's run read as values: after every execution the two result arrays hold the specification's `context` and
  `weight` of the argument arrays.

  Grid point `t` of the 16 × 8 grid (row-major) works on batch `t / 8` and query tile `t % 8`. Its input blocks are
  rows `256·(t % 8) …` of the batch's queries, the whole transposed weight matrix and bias row (the host transposes and
  reshapes them before the call), and all of the batch's key rows; the length word it reads is the batch's. The scratch
  buffer is written only at a batch's first tile, with the batch's key rows, so by induction along the grid it holds
  the key rows of the current point's batch after every point. Hence every point leaves the specification's tile of
  attention weights and, multiplying by the cached rows, its tile of context vectors. Each tile is written back to
  block (t / 8, t % 8) of its array, the 128 blocks tile the arrays, and so the arrays end as the specification's.
-/
import proofs.«413810_j1314259993034_2_alg».proof.Proof.Gen.KernelIdeal.Frame
import proofs.«413810_j1314259993034_2_alg».proof.Proof.KernelPieces
import proofs.«413810_j1314259993034_2_alg».proof.Proof.KernelBody
import proofs.«413810_j1314259993034_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

/-- The five argument arrays as the launch memory holds them. -/
abbrev decA (c : Dev nD) : SDec.Idx → EReal := m ((c.tc : Thread nD τ).loc main_arg0)
abbrev embA (c : Dev nD) : SEmb.Idx → EReal := m ((c.tc : Thread nD τ).loc main_arg1)
abbrev lenA (c : Dev nD) : SLen.Idx → BitVec 32 := m ((c.tc : Thread nD τ).loc main_arg2)
abbrev wA (c : Dev nD) : SW.Idx → EReal := m ((c.tc : Thread nD τ).loc main_arg3)
abbrev bA (c : Dev nD) : SB.Idx → EReal := m ((c.tc : Thread nD τ).loc main_arg4)

/-- Grid point `t` of the 16 × 8 grid, row-major: batch `t / 8`, query tile `t % 8`. -/
abbrev batchOf (n : ℕ) (h : n < 128) : Fin 16 := ⟨n / 8, by omega⟩
abbrev tileOf (n : ℕ) : Fin 8 := ⟨n % 8, by omega⟩

/-- The printed index maps over the grid: the query and result windows move with (batch, tile), the key window with
    the batch, the weight and bias windows stay. -/
theorem idx_facts : ∀ t : Fin grid0.N,
    (cc0_transform_0 (grid0.coords t) 0 = t.val / 8 ∧ cc0_transform_0 (grid0.coords t) 1 = t.val % 8 ∧ cc0_transform_0 (grid0.coords t) 2 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = t.val / 8 ∧ cc0_transform_3 (grid0.coords t) 1 = 0 ∧ cc0_transform_3 (grid0.coords t) 2 = 0)
    ∧ (cc0_transform_4 (grid0.coords t) 0 = t.val / 8 ∧ cc0_transform_4 (grid0.coords t) 1 = t.val % 8 ∧ cc0_transform_4 (grid0.coords t) 2 = 0)
    ∧ (cc0_transform_5 (grid0.coords t) 0 = t.val / 8 ∧ cc0_transform_5 (grid0.coords t) 1 = t.val % 8 ∧ cc0_transform_5 (grid0.coords t) 2 = 0)
    ∧ (k0_off1 (grid0.coords t) 0 = t.val / 8) :=
  (by decide +kernel : ∀ t : Fin grid0.N, _)

variable (hO : Ok m)

theorem N_eq : (cfgM m hO).N = 128 := N_0

/-- The query tile the body loads at point `t`: rows `256·(t % 8) + p` of batch `t / 8`. -/
theorem qblock_apply (c : Dev nD) (t : Fin (cfgM m hO).N) (p : Fin 256) (d : Fin 1024) :
    (iblk m hO c 0 t : Vec Ideal S1x256x1024 .f32) (ix3 (0 : Fin 1) p d)
      = decA m c (ix3 (batchOf t.val (lt_of_lt_of_eq t.isLt (N_eq m hO))) (row (tileOf t.val) p) d) := by
  obtain ⟨⟨e0, e1, e2⟩, -⟩ := idx_facts t
  unfold iblk
  show V m c main_arg0 ((((cfgM m hO).win 0).blk t).view.emb (ix3 (0 : Fin 1) p d)) = _
  rw [V_main_arg0]
  refine congrArg (m ((c.tc : Thread nD τ).loc main_arg0)) (funext fun a => Fin.ext ?_)
  match a with
  | ⟨0, _⟩ => show cc0_transform_0 (grid0.coords t) 0 * 1 + 1 * 0 = t.val / 8; omega
  | ⟨1, _⟩ => show cc0_transform_0 (grid0.coords t) 1 * 256 + 1 * p.val = 256 * (t.val % 8) + p.val; omega
  | ⟨2, _⟩ => show cc0_transform_0 (grid0.coords t) 2 * 1024 + 1 * d.val = d.val; omega

/-- The key rows the body loads at point `t`: all of batch `t / 8`. -/
theorem kblock_apply (c : Dev nD) (t : Fin (cfgM m hO).N) (k : Fin 2048) (e : Fin 512) :
    (iblk m hO c 3 t : Vec Ideal S1x2048x512 .f32) (ix3 (0 : Fin 1) k e)
      = embA m c (ix3 (batchOf t.val (lt_of_lt_of_eq t.isLt (N_eq m hO))) k e) := by
  obtain ⟨-, -, -, ⟨e0, e1, e2⟩, -⟩ := idx_facts t
  unfold iblk
  show V m c main_arg1 ((((cfgM m hO).win 3).blk t).view.emb (ix3 (0 : Fin 1) k e)) = _
  rw [V_main_arg1]
  refine congrArg (m ((c.tc : Thread nD τ).loc main_arg1)) (funext fun a => Fin.ext ?_)
  match a with
  | ⟨0, _⟩ => show cc0_transform_3 (grid0.coords t) 0 * 1 + 1 * 0 = t.val / 8; omega
  | ⟨1, _⟩ => show cc0_transform_3 (grid0.coords t) 1 * 2048 + 1 * k.val = k.val; omega
  | ⟨2, _⟩ => show cc0_transform_3 (grid0.coords t) 2 * 512 + 1 * e.val = e.val; omega

/-- The host transposes the weight matrix before the call. -/
theorem V_wt (c : Dev nD) : (V m c main_v0 : S1024x512.Idx → EReal)
    = transpose S1024x512 [1, 0] (wA m c) Facts₀.transposes_S512x1024_S1024x512_1_0 := by
  dsimp only [Gen.V, Gen.hostOps0]; after_results

/-- The host reshapes the bias to one row before the call. -/
theorem V_b2 (c : Dev nD) : (V m c main_v1 : S1x512.Idx → EReal)
    = shapeCast S1x512 (bA m c) Facts₀.shapeCasts_S512_S1x512 := by
  dsimp only [Gen.V, Gen.hostOps0]; after_results; rfl

/-- The weight window is the whole transposed matrix at every point: entry (d, e) is `W[e, d]`. -/
theorem wblock_apply (c : Dev nD) (t : Fin (cfgM m hO).N) (d : Fin 1024) (e : Fin 512) :
    (iblk m hO c 1 t : Vec Ideal S1024x512 .f32) (ix2 d e) = wA m c (ix2 e d) := by
  obtain ⟨-, ⟨e0, e1⟩, -⟩ := idx_facts t
  unfold iblk
  show V m c main_v0 ((((cfgM m hO).win 1).blk t).view.emb (ix2 d e)) = _
  have hi : (((cfgM m hO).win 1).blk t).view.emb (ix2 d e) = (ix2 d e : S1024x512.Idx) := funext fun a => Fin.ext (by
    match a with
    | ⟨0, _⟩ => show cc0_transform_1 (grid0.coords t) 0 * 1024 + 1 * d.val = d.val; omega
    | ⟨1, _⟩ => show cc0_transform_1 (grid0.coords t) 1 * 512 + 1 * e.val = e.val; omega)
  refine (congrArg (V m c main_v0) hi).trans ?_
  refine (congrFun (V_wt m c) (ix2 d e)).trans ?_
  exact transpose_ix2_apply (wA m c) Facts₀.transposes_S512x1024_S1024x512_1_0 d e

/-- The bias window is the whole bias row at every point. -/
theorem bblock_apply (c : Dev nD) (t : Fin (cfgM m hO).N) (e : Fin 512) :
    (iblk m hO c 2 t : Vec Ideal S1x512 .f32) (ix2 (0 : Fin 1) e) = bA m c (ix1 e) := by
  obtain ⟨-, -, ⟨e0, e1⟩, -⟩ := idx_facts t
  unfold iblk
  show V m c main_v1 ((((cfgM m hO).win 2).blk t).view.emb (ix2 (0 : Fin 1) e)) = _
  have hi : (((cfgM m hO).win 2).blk t).view.emb (ix2 (0 : Fin 1) e) = (ix2 (0 : Fin 1) e : S1x512.Idx) := funext fun a => Fin.ext (by
    match a with
    | ⟨0, _⟩ => show cc0_transform_2 (grid0.coords t) 0 * 1 + 1 * 0 = 0; omega
    | ⟨1, _⟩ => show cc0_transform_2 (grid0.coords t) 1 * 512 + 1 * e.val = e.val; omega)
  refine (congrArg (V m c main_v1) hi).trans ?_
  refine (congrFun (V_b2 m c) (ix2 (0 : Fin 1) e)).trans ?_
  refine (shapeCast_addUnit_apply ![512] (bA m c) Facts₀.shapeCasts_S512_S1x512 (ix2 (0 : Fin 1) e)).trans ?_
  exact congrArg (bA m c) (funext fun a => by match a with | ⟨0, _⟩ => rfl)

/-- The length word the body reads at point `t` is the batch's length. -/
theorem word_eq (c : Dev nD) (t : Fin (cfgM m hO).N) :
    Pieces.word c (grid0.coords t) (tbl m 0) = lenA m c (ix1 (batchOf t.val (lt_of_lt_of_eq t.isLt (N_eq m hO)))) := by
  obtain ⟨-, -, -, -, -, -, e⟩ := idx_facts t
  obtain rfl : c = 0 := Subsingleton.elim _ _
  have ht : (tbl m 0 : SLen.Idx → BitVec 32) = m (((0 : Dev nD).tc : Thread nD τ).loc main_arg2) := V_main_arg2 m 0
  unfold Pieces.word
  rw [ht]
  show m (((0 : Dev nD).tc : Thread nD τ).loc main_arg2) _ = _
  refine congrArg (m (((0 : Dev nD).tc : Thread nD τ).loc main_arg2)) (funext fun a => Fin.ext ?_)
  match a with
  | ⟨0, _⟩ => show k0_off1 (grid0.coords t) 0 + 1 * 0 = t.val / 8; omega

/-- Batch `bi`'s key rows, as the scratch buffer caches them. -/
abbrev cache (c : Dev nD) (bi : Fin 16) : Vec Ideal S2048x512 .bf16 := fun y => embA m c (ix3 bi (y 0) (y 1))

/-- The tile of attention weights of batch `bi`'s query tile `ni`. -/
abbrev attnTile (c : Dev nD) (bi : Fin 16) (ni : Fin 8) : Vec Ideal S1x256x2048 .f32 :=
  fun y => weight (decA m c) (embA m c) (lenA m c) (wA m c) (bA m c) bi (row ni (y 1)) (y 2)

/-- The tile of context vectors of batch `bi`'s query tile `ni`. -/
abbrev ctxTile (c : Dev nD) (bi : Fin 16) (ni : Fin 8) : Vec Ideal S1x256x512 .f32 :=
  fun y => context (decA m c) (embA m c) (lenA m c) (wA m c) (bA m c) bi (row ni (y 1)) (y 2)

/-! ### What each point leaves, case by case -/

theorem scratch_A (c : Dev nD) (t : Fin (cfgM m hO).N) (h0 : t.val % 8 = 0) :
    (outsAt0 m hO c t.val t.isLt).2.2 = k0_pay2 (iblk m hO c 3 t) := by
  rw [outsAt0_A m hO c t h0]; dsimp only
  exact Pieces.scratch_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (iblk m hO c 0 t) (iblk m hO c 1 t) (iblk m hO c 2 t) (iblk m hO c 3 t) (tbl m 0)

theorem attn_A (c : Dev nD) (t : Fin (cfgM m hO).N) (h0 : t.val % 8 = 0) :
    (outsAt0 m hO c t.val t.isLt).2.1
      = k0_pay4 (iblk m hO c 0 t) (iblk m hO c 1 t) (iblk m hO c 2 t) (iblk m hO c 3 t) (Pieces.word c (grid0.coords t) (tbl m 0)) := by
  rw [outsAt0_A m hO c t h0]; dsimp only
  exact Pieces.attn_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (iblk m hO c 0 t) (iblk m hO c 1 t) (iblk m hO c 2 t) (iblk m hO c 3 t) (tbl m 0)

theorem ctx_A (c : Dev nD) (t : Fin (cfgM m hO).N) (h0 : t.val % 8 = 0) :
    (outsAt0 m hO c t.val t.isLt).1
      = k0_pay1 (k0_pay3 (iblk m hO c 0 t) (iblk m hO c 1 t) (iblk m hO c 2 t) (iblk m hO c 3 t) (Pieces.word c (grid0.coords t) (tbl m 0))) (k0_pay2 (iblk m hO c 3 t)) := by
  rw [outsAt0_A m hO c t h0]; dsimp only
  exact Pieces.ctx_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (iblk m hO c 0 t) (iblk m hO c 1 t) (iblk m hO c 2 t) (iblk m hO c 3 t) (tbl m 0)

theorem scratch_B (c : Dev nD) (t : Fin (cfgM m hO).N) (h0 : ¬t.val % 8 = 0) :
    (outsAt0 m hO c t.val t.isLt).2.2 = (outsAt0 m hO c (t.val - 1) (Nat.lt_of_le_of_lt (Nat.sub_le _ _) t.isLt)).2.2 := by
  rw [outsAt0_B m hO c t h0]; rfl

theorem attn_B (c : Dev nD) (t : Fin (cfgM m hO).N) (h0 : ¬t.val % 8 = 0) :
    (outsAt0 m hO c t.val t.isLt).2.1
      = k0_pay4 (iblk m hO c 0 t) (iblk m hO c 1 t) (iblk m hO c 2 t) (iblk m hO c 3 t) (Pieces.word c (grid0.coords t) (tbl m 0)) := by
  rw [outsAt0_B m hO c t h0]; dsimp only
  exact Pieces.attn_later c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (iblk m hO c 0 t) (iblk m hO c 1 t) (iblk m hO c 2 t) (iblk m hO c 3 t) (tbl m 0) _

theorem ctx_B (c : Dev nD) (t : Fin (cfgM m hO).N) (h0 : ¬t.val % 8 = 0) :
    (outsAt0 m hO c t.val t.isLt).1
      = k0_pay1 (k0_pay3 (iblk m hO c 0 t) (iblk m hO c 1 t) (iblk m hO c 2 t) (iblk m hO c 3 t) (Pieces.word c (grid0.coords t) (tbl m 0)))
          (outsAt0 m hO c (t.val - 1) (Nat.lt_of_le_of_lt (Nat.sub_le _ _) t.isLt)).2.2 := by
  rw [outsAt0_B m hO c t h0]; dsimp only
  exact Pieces.ctx_later c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (iblk m hO c 0 t) (iblk m hO c 1 t) (iblk m hO c 2 t) (iblk m hO c 3 t) (tbl m 0) _

/-! ### The cached key rows -/

/-- Caching the key block of point `t` leaves batch `t / 8`'s key rows. -/
theorem cached_eq (c : Dev nD) (t : Fin (cfgM m hO).N) :
    k0_pay2 (F := Ideal) (iblk m hO c 3 t) = cache m c (batchOf t.val (lt_of_lt_of_eq t.isLt (N_eq m hO))) := by
  funext y
  obtain ⟨k, e, rfl⟩ : ∃ (k : Fin 2048) (e : Fin 512), y = ix2 k e := ⟨y 0, y 1, eq_ix2 y⟩
  refine (Body.pay2_apply (iblk m hO c 3 t) k e).trans ?_
  exact kblock_apply m hO c t k e

/-- After every point the scratch holds the key rows of the point's batch: cached at the batch's first tile, kept
    through its other seven. -/
theorem scratch_eq (c : Dev nD) : ∀ (n : ℕ) (hn : n < (cfgM m hO).N),
    (outsAt0 m hO c n hn).2.2 = cache m c (batchOf n (lt_of_lt_of_eq hn (N_eq m hO)))
  | 0, hn => (scratch_A m hO c ⟨0, hn⟩ rfl).trans (cached_eq m hO c ⟨0, hn⟩)
  | n + 1, hn => by
    by_cases h0 : (n + 1) % 8 = 0
    · exact (scratch_A m hO c ⟨n + 1, hn⟩ h0).trans (cached_eq m hO c ⟨n + 1, hn⟩)
    · refine (scratch_B m hO c ⟨n + 1, hn⟩ h0).trans ?_
      show (outsAt0 m hO c n _).2.2 = _
      rw [scratch_eq c n (Nat.lt_of_succ_lt hn)]
      have hb : batchOf n (lt_of_lt_of_eq (Nat.lt_of_succ_lt hn) (N_eq m hO)) = batchOf (n + 1) (lt_of_lt_of_eq hn (N_eq m hO)) :=
        Fin.ext (by show n / 8 = (n + 1) / 8; omega)
      rw [hb]

/-- So before a later tile of a batch the scratch already holds that batch's key rows. -/
theorem scratch_prev (c : Dev nD) (t : Fin (cfgM m hO).N) (h0 : ¬t.val % 8 = 0) :
    (outsAt0 m hO c (t.val - 1) (Nat.lt_of_le_of_lt (Nat.sub_le _ _) t.isLt)).2.2 = cache m c (batchOf t.val (lt_of_lt_of_eq t.isLt (N_eq m hO))) := by
  rw [scratch_eq m hO c (t.val - 1) (Nat.lt_of_le_of_lt (Nat.sub_le _ _) t.isLt)]
  have hN := lt_of_lt_of_eq t.isLt (N_eq m hO)
  exact congrArg (cache m c) (Fin.ext (by show (t.val - 1) / 8 = t.val / 8; omega))

/-! ### The two result tiles of a point -/

/-- The attention payload of point `t`'s blocks is the specification's tile. -/
theorem attn_payload (c : Dev nD) (t : Fin (cfgM m hO).N) :
    k0_pay4 (F := Ideal) (iblk m hO c 0 t) (iblk m hO c 1 t) (iblk m hO c 2 t) (iblk m hO c 3 t) (Pieces.word c (grid0.coords t) (tbl m 0))
      = attnTile m c (batchOf t.val (lt_of_lt_of_eq t.isLt (N_eq m hO))) (tileOf t.val) := by
  funext y
  obtain ⟨z, p, k, rfl⟩ : ∃ (z : Fin 1) (p : Fin 256) (k : Fin 2048), y = ix3 z p k := ⟨y 0, y 1, y 2, eq_ix3 y⟩
  obtain rfl : z = 0 := Subsingleton.elim _ _
  refine (Body.pay4_apply (iblk m hO c 0 t) (iblk m hO c 1 t) (iblk m hO c 2 t) (iblk m hO c 3 t) (Pieces.word c (grid0.coords t) (tbl m 0)) p k).trans ?_
  exact Body.pay3_apply (decA m c) (embA m c) (lenA m c) (wA m c) (bA m c) (batchOf t.val (lt_of_lt_of_eq t.isLt (N_eq m hO))) (tileOf t.val)
    (iblk m hO c 0 t) (iblk m hO c 1 t) (iblk m hO c 2 t) (iblk m hO c 3 t) (Pieces.word c (grid0.coords t) (tbl m 0))
    (qblock_apply m hO c t) (wblock_apply m hO c t) (bblock_apply m hO c t) (kblock_apply m hO c t) (word_eq m hO c t) p k

/-- The context payload, over a scratch holding the batch's key rows, is the specification's tile. -/
theorem ctx_payload (c : Dev nD) (t : Fin (cfgM m hO).N) (xs : Vec Ideal S2048x512 .bf16)
    (hxs : xs = cache m c (batchOf t.val (lt_of_lt_of_eq t.isLt (N_eq m hO)))) :
    k0_pay1 (F := Ideal) (k0_pay3 (iblk m hO c 0 t) (iblk m hO c 1 t) (iblk m hO c 2 t) (iblk m hO c 3 t) (Pieces.word c (grid0.coords t) (tbl m 0))) xs
      = ctxTile m c (batchOf t.val (lt_of_lt_of_eq t.isLt (N_eq m hO))) (tileOf t.val) := by
  subst hxs
  funext y
  obtain ⟨z, p, e, rfl⟩ : ∃ (z : Fin 1) (p : Fin 256) (e : Fin 512), y = ix3 z p e := ⟨y 0, y 1, y 2, eq_ix3 y⟩
  obtain rfl : z = 0 := Subsingleton.elim _ _
  refine (Body.pay1_apply _ _ p e).trans ?_
  show _ = context (decA m c) (embA m c) (lenA m c) (wA m c) (bA m c) (batchOf t.val (lt_of_lt_of_eq t.isLt (N_eq m hO))) (row (tileOf t.val) p) e
  unfold context
  refine Finset.sum_congr rfl fun k _ => ?_
  refine congrArg (· * embA m c (ix3 (batchOf t.val (lt_of_lt_of_eq t.isLt (N_eq m hO))) k e)) ?_
  exact Body.pay3_apply (decA m c) (embA m c) (lenA m c) (wA m c) (bA m c) (batchOf t.val (lt_of_lt_of_eq t.isLt (N_eq m hO))) (tileOf t.val)
    (iblk m hO c 0 t) (iblk m hO c 1 t) (iblk m hO c 2 t) (iblk m hO c 3 t) (Pieces.word c (grid0.coords t) (tbl m 0))
    (qblock_apply m hO c t) (wblock_apply m hO c t) (bblock_apply m hO c t) (kblock_apply m hO c t) (word_eq m hO c t) p k

/-- After point `t` the attention staging buffer holds the tile of batch `t / 8`, query tile `t % 8`. -/
theorem attn_tile (c : Dev nD) (t : Fin (cfgM m hO).N) :
    (outsAt0 m hO c t.val t.isLt).2.1 = attnTile m c (batchOf t.val (lt_of_lt_of_eq t.isLt (N_eq m hO))) (tileOf t.val) := by
  by_cases h0 : t.val % 8 = 0
  · exact (attn_A m hO c t h0).trans (attn_payload m hO c t)
  · exact (attn_B m hO c t h0).trans (attn_payload m hO c t)

/-- After point `t` the context staging buffer holds the tile of batch `t / 8`, query tile `t % 8`. -/
theorem ctx_tile (c : Dev nD) (t : Fin (cfgM m hO).N) :
    (outsAt0 m hO c t.val t.isLt).1 = ctxTile m c (batchOf t.val (lt_of_lt_of_eq t.isLt (N_eq m hO))) (tileOf t.val) := by
  by_cases h0 : t.val % 8 = 0
  · exact (ctx_A m hO c t h0).trans (ctx_payload m hO c t _ (cached_eq m hO c t))
  · exact (ctx_B m hO c t h0).trans (ctx_payload m hO c t _ (scratch_prev m hO c t h0))

/-! ### From tiles to the two result arrays -/

/-- What point `t` writes back to the attention array is tile (t / 8, t % 8) of the specification's array. -/
theorem flushed_attn (c : Dev nD) (t : Fin (cfgM m hO).N) :
    (dats m hO 0 c).flushed 5 t = (((cfgM m hO).win 5).blk t).view.read (Elt Ideal) (attnArr (decA m c) (embA m c) (lenA m c) (wA m c) (bA m c)) := by
  obtain ⟨-, -, -, -, -, ⟨e0, e1, e2⟩, -⟩ := idx_facts t
  show ((cfgM m hO).win 5).cut (grid0.coords t) ((dats m hO 0 c).after 5 t) = _
  rw [after0_5, attn_tile m hO c t]
  refine funext fun (j : S1x256x2048.Idx) => ?_
  show weight (decA m c) (embA m c) (lenA m c) (wA m c) (bA m c) (batchOf t.val (lt_of_lt_of_eq t.isLt (N_eq m hO))) (row (tileOf t.val) (j 1)) (j 2)
    = attnArr (decA m c) (embA m c) (lenA m c) (wA m c) (bA m c) ((((cfgM m hO).win 5).blk t).view.emb j)
  unfold attnArr
  have hj0 : (j 0).val < 1 := (j 0).isLt
  refine congr (congr (congrArg (weight (decA m c) (embA m c) (lenA m c) (wA m c) (bA m c)) (Fin.ext ?_)) (Fin.ext ?_)) (Fin.ext ?_)
  · show t.val / 8 = cc0_transform_5 (grid0.coords t) 0 * 1 + 1 * (j 0).val; omega
  · show 256 * (t.val % 8) + (j 1).val = cc0_transform_5 (grid0.coords t) 1 * 256 + 1 * (j 1).val; omega
  · show (j 2).val = cc0_transform_5 (grid0.coords t) 2 * 2048 + 1 * (j 2).val; omega

/-- What point `t` writes back to the context array is tile (t / 8, t % 8) of the specification's array. -/
theorem flushed_ctx (c : Dev nD) (t : Fin (cfgM m hO).N) :
    (dats m hO 0 c).flushed 4 t = (((cfgM m hO).win 4).blk t).view.read (Elt Ideal) (ctxArr (decA m c) (embA m c) (lenA m c) (wA m c) (bA m c)) := by
  obtain ⟨-, -, -, -, ⟨e0, e1, e2⟩, -⟩ := idx_facts t
  show ((cfgM m hO).win 4).cut (grid0.coords t) ((dats m hO 0 c).after 4 t) = _
  rw [after0_4, ctx_tile m hO c t]
  refine funext fun (j : S1x256x512.Idx) => ?_
  show context (decA m c) (embA m c) (lenA m c) (wA m c) (bA m c) (batchOf t.val (lt_of_lt_of_eq t.isLt (N_eq m hO))) (row (tileOf t.val) (j 1)) (j 2)
    = ctxArr (decA m c) (embA m c) (lenA m c) (wA m c) (bA m c) ((((cfgM m hO).win 4).blk t).view.emb j)
  unfold ctxArr
  have hj0 : (j 0).val < 1 := (j 0).isLt
  refine congr (congr (congrArg (context (decA m c) (embA m c) (lenA m c) (wA m c) (bA m c)) (Fin.ext ?_)) (Fin.ext ?_)) (Fin.ext ?_)
  · show t.val / 8 = cc0_transform_4 (grid0.coords t) 0 * 1 + 1 * (j 0).val; omega
  · show 256 * (t.val % 8) + (j 1).val = cc0_transform_4 (grid0.coords t) 1 * 256 + 1 * (j 1).val; omega
  · show (j 2).val = cc0_transform_4 (grid0.coords t) 2 * 512 + 1 * (j 2).val; omega

/-- Every entry (bi, n, k) of the attention array is in the tile of point `8·bi + n / 256`, at row `n % 256`. -/
theorem cover_attn (i : SAttn.Idx) :
    ∃ t : Fin (cfgM m hO).N, ((cfgM m hO).win 5).flush t = true ∧ i ∈ (((cfgM m hO).win 5).blk t).view.set := by
  have h0 : (i 0).val < 16 := (i 0).isLt
  have h1 : (i 1).val < 2048 := (i 1).isLt
  have h2 : (i 2).val < 2048 := (i 2).isLt
  have ht : 8 * (i 0).val + (i 1).val / 256 < 128 := by omega
  obtain ⟨t, htv⟩ : ∃ t : Fin (cfgM m hO).N, t.val = 8 * (i 0).val + (i 1).val / 256 :=
    ⟨⟨8 * (i 0).val + (i 1).val / 256, lt_of_lt_of_eq ht (N_eq m hO).symm⟩, rfl⟩
  obtain ⟨-, -, -, -, -, ⟨e0, e1, e2⟩, -⟩ := idx_facts t
  refine ⟨t, flush0_5 (adm m hO) t, ?_⟩
  have hy : (((cfgM m hO).win 5).blk t).view.emb
      (ix3 (0 : Fin 1) (⟨(i 1).val % 256, Nat.mod_lt _ (by decide)⟩ : Fin 256) (i 2) : S1x256x2048.Idx) = i :=
    funext fun a => Fin.ext (by
      match a with
      | ⟨0, _⟩ => show cc0_transform_5 (grid0.coords t) 0 * 1 + 1 * 0 = (i 0).val; omega
      | ⟨1, _⟩ => show cc0_transform_5 (grid0.coords t) 1 * 256 + 1 * ((i 1).val % 256) = (i 1).val; omega
      | ⟨2, _⟩ => show cc0_transform_5 (grid0.coords t) 2 * 2048 + 1 * (i 2).val = (i 2).val; omega)
  rw [← hy]
  exact View.emb_mem_set _ _

/-- Every entry (bi, n, e) of the context array is in the tile of point `8·bi + n / 256`, at row `n % 256`. -/
theorem cover_ctx (i : SEmb.Idx) :
    ∃ t : Fin (cfgM m hO).N, ((cfgM m hO).win 4).flush t = true ∧ i ∈ (((cfgM m hO).win 4).blk t).view.set := by
  have h0 : (i 0).val < 16 := (i 0).isLt
  have h1 : (i 1).val < 2048 := (i 1).isLt
  have h2 : (i 2).val < 512 := (i 2).isLt
  have ht : 8 * (i 0).val + (i 1).val / 256 < 128 := by omega
  obtain ⟨t, htv⟩ : ∃ t : Fin (cfgM m hO).N, t.val = 8 * (i 0).val + (i 1).val / 256 :=
    ⟨⟨8 * (i 0).val + (i 1).val / 256, lt_of_lt_of_eq ht (N_eq m hO).symm⟩, rfl⟩
  obtain ⟨-, -, -, -, ⟨e0, e1, e2⟩, -⟩ := idx_facts t
  refine ⟨t, flush0_4 (adm m hO) t, ?_⟩
  have hy : (((cfgM m hO).win 4).blk t).view.emb
      (ix3 (0 : Fin 1) (⟨(i 1).val % 256, Nat.mod_lt _ (by decide)⟩ : Fin 256) (i 2) : S1x256x512.Idx) = i :=
    funext fun a => Fin.ext (by
      match a with
      | ⟨0, _⟩ => show cc0_transform_4 (grid0.coords t) 0 * 1 + 1 * 0 = (i 0).val; omega
      | ⟨1, _⟩ => show cc0_transform_4 (grid0.coords t) 1 * 256 + 1 * ((i 1).val % 256) = (i 1).val; omega
      | ⟨2, _⟩ => show cc0_transform_4 (grid0.coords t) 2 * 512 + 1 * (i 2).val = (i 2).val; omega)
  rw [← hy]
  exact View.emb_mem_set _ _

/-- The attention array after the run: the tiles fill it, so it is the specification's array. -/
theorem final_attn (c : Dev nD) : (dats m hO 0 c).arrAt 5 (cfgM m hO).N = attnArr (decA m c) (embA m c) (lenA m c) (wA m c) (bA m c) :=
  (dats m hO 0 c).arrAt_eq_of_cover 5 (attnArr (decA m c) (embA m c) (lenA m c) (wA m c) (bA m c)) (fun t _ => flushed_attn m hO c t) (cover_attn m hO)

/-- The context array after the run likewise. -/
theorem final_ctx (c : Dev nD) : (dats m hO 0 c).arrAt 4 (cfgM m hO).N = ctxArr (decA m c) (embA m c) (lenA m c) (wA m c) (bA m c) :=
  (dats m hO 0 c).arrAt_eq_of_cover 4 (ctxArr (decA m c) (embA m c) (lenA m c) (wA m c) (bA m c)) (fun t _ => flushed_ctx m hO c t) (cover_ctx m hO)

/-! ### The run, read -/

/-- No index map of this call reads the length table, so the pipeline asks nothing of its contents. -/
theorem ok : Ok m := by
  show ok0 (tbl m)
  unfold ok0
  trivial

/-- Every weakly fair execution terminates with the two result arrays at the specification's `context` and `weight`
    of the argument arrays, and the arguments unchanged. -/
theorem run : θ_run defs (onTc (τ := τ) (main (F := Ideal))) ⟨m, fun _ => 0, ρ⟩ fun r => ∀ c : Dev nD,
      r.2.mem ((c.tc : Thread nD τ).loc main_v2_0) = ctxArr (decA m c) (embA m c) (lenA m c) (wA m c) (bA m c)
      ∧ r.2.mem ((c.tc : Thread nD τ).loc main_v2_1) = attnArr (decA m c) (embA m c) (lenA m c) (wA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final_ctx m (ok m) c), ((h c).1 5).trans (final_attn m (ok m) c),
      ((h c).1 0).trans (((dats m (ok m) 0 c).arrAt_in 0 rfl _).trans ((A_eq m (ok m) c 0).trans (V_main_arg0 m c))),
      ((h c).1 3).trans (((dats m (ok m) 0 c).arrAt_in 3 rfl _).trans ((A_eq m (ok m) c 3).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok m))

end Cert.KernelIdeal.RunValue

end
-- ==== Proof.lean ====
/-
  The certificate of a Pallas attention kernel with a padding mask against its jnp reference, over the extended reals.

  Both programs compute, for every batch, the linear layer `dec · Wᵀ + b`, its scores against the batch's key rows,
  −∞ on the key positions at or past the batch's length, the softmax of each row (maximum, shifted exponential, sum,
  quotient) and the weighted sum of the key rows: the functions `weight` and `context` of Proof/Spec.lean. The
  kernel does so one tile of 256 query rows at a time over a 16 × 8 grid, caching the batch's key rows in a scratch
  buffer at the batch's first tile and reading that cache at the other seven; the reference does it with whole-array
  contractions and reductions. The two sides apply the same operations element by element and differ in the grouping
  of sums only, so no use is made of the inputs' finiteness.

  The kernel's side: the stores each point leaves as values (Proof/KernelPieces.lean), the body's arithmetic at an
  index (Proof/KernelBody.lean), the scratch carried across a batch's tiles and the tiles assembled into the two
  result arrays (Proof/KernelRun.lean). The reference's side: its stages identified with the specification
  (Proof/RefIsSpec.lean) over its run read back. The three frames come from the two kernel runs and the reference's
  run; the length table is read by no index map, so the kernel frames ask nothing of it.
-/
import proofs.«413810_j1314259993034_2_alg».proof.Defs
import proofs.«413810_j1314259993034_2_alg».proof.Proof.Gen.Kernel
import proofs.«413810_j1314259993034_2_alg».proof.Proof.Gen.Kernel.Skeleton
import proofs.«413810_j1314259993034_2_alg».proof.Proof.Gen.Kernel.Launch
import proofs.«413810_j1314259993034_2_alg».proof.Proof.Gen.Kernel.Points
import proofs.«413810_j1314259993034_2_alg».proof.Proof.Gen.Kernel.Frame
import proofs.«413810_j1314259993034_2_alg».proof.Proof.Gen.KernelIdeal
import proofs.«413810_j1314259993034_2_alg».proof.Proof.Gen.KernelIdeal.Skeleton
import proofs.«413810_j1314259993034_2_alg».proof.Proof.Gen.KernelIdeal.Launch
import proofs.«413810_j1314259993034_2_alg».proof.Proof.Gen.KernelIdeal.Points
import proofs.«413810_j1314259993034_2_alg».proof.Proof.Gen.KernelIdeal.Frame
import proofs.«413810_j1314259993034_2_alg».proof.Proof.Gen.ReferenceIdeal
import proofs.«413810_j1314259993034_2_alg».proof.Proof.Gen.Pre_finite_inputs
import proofs.«413810_j1314259993034_2_alg».proof.Proof.Gen.ReferenceIdeal.Run
import proofs.«413810_j1314259993034_2_alg».proof.Proof.Gen.ReferenceIdeal.Read
import proofs.«413810_j1314259993034_2_alg».proof.Proof.Spec
import proofs.«413810_j1314259993034_2_alg».proof.Proof.RefIsSpec
import proofs.«413810_j1314259993034_2_alg».proof.Proof.KernelRun
import Idealize.ShloMosaic.Adequacy
import Idealize.ShloMosaic.Init

noncomputable section

namespace Cert.Proof

open Idealize.ShloMosaic Idealize.SL.Sem

/-- The word-level kernel's pipeline asks nothing of the length table either: no index map reads it. -/
theorem okBits (m : (ℓ : Loc Cert.Kernel.nD Cert.Kernel.τ Cert.Kernel.sig) → Buf (Elt Bits) ℓ) : Cert.Kernel.Gen.Ok m := by
  show Cert.Kernel.ok0 (Cert.Kernel.Gen.tbl m)
  unfold Cert.Kernel.ok0
  trivial

theorem frame_k : Cert.frame_Kernel := fun m ρ _ => Cert.Kernel.Gen.frame m ρ (okBits m)

theorem frame_ki : Cert.frame_KernelIdeal := fun m ρ _ => Cert.KernelIdeal.Gen.frame m ρ (Cert.KernelIdeal.RunValue.ok m)

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the two results at the specification's `context` and `weight` of the arguments, which agree. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ?_) (Cert.ReferenceIdeal.Value.run (F := Ideal) m' ρ')
  obtain ⟨h24, h23, a0, a1, a2, a3, a4⟩ := h c
  obtain ⟨g0, g1, g2, g3, g4⟩ := hagree c
  refine ⟨h24.trans ?_, h23.trans ?_, a0, a1, a2, a3, a4⟩
  · rw [Cert.ReferenceIdeal.Read.val_main_v24_eq, Cert.ReferenceIdeal.RefValue.ctx_eq, g0, g1, g2, g3, g4]
  · rw [Cert.ReferenceIdeal.Read.val_main_v23_eq, Cert.ReferenceIdeal.RefValue.attn_eq, g0, g1, g2, g3, g4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
